-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 88
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S1x40, .f32⟩
  | .local _ .vmem, ⟨13, _⟩ => ⟨S5000x40, .f32⟩
  | .local _ .vmem, ⟨14, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S3300000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x40, .f32⟩
  | 115 => ⟨S3300000x1, .f32⟩
  | 116 => ⟨S3300000x40, .f32⟩
  | 117 => ⟨S3300000x40, .f32⟩
  | 118 => ⟨S_, .f32⟩
  | 119 => ⟨S100000x40, .f32⟩
  | 120 => ⟨S3300000x1, .i32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.RefStages.lean ====
/-
  The reference's two stages that the kernel computes on the matrix and vector units, each named as a function of an
  ARBITRARY operand, so that the kernel's regions can be compared with them without opening the rest of the reference:
  the second layer's product `y · W₂` for any left operand `y`, and the row-wise log-softmax
  `z ↦ (z − max_j z) − log Σ_j exp (z − max_j z)` for any logits `z`, exactly as the reference spells it (a running
  maximum from −∞, joined once more with −∞; the exponentials summed from 0).
-/
import proofs.«146416_j58969900974604_1_alg».proof.Proof.RefRead

noncomputable section

namespace Cert.ReferenceIdeal.Stages

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The second layer's matrix product, `[100000,16] · [16,40]`, on any left operand. -/
def dot2 (y : (⟨S100000x16, .f32⟩ : BufTy).Contents (Elt F)) (w : (⟨S16x40, .f32⟩ : BufTy).Contents (Elt F)) :
    (⟨S100000x40, .f32⟩ : BufTy).Contents (Elt F) :=
  Host.dotGeneral dot_S100000x16_S16x40_S100000x40_1_0_0_1_n_n none y w

/-- The reference's second product is `dot2` of its activated first layer. -/
theorem val_main_v48_eq (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F)) (x4 : (⟨S16x40, .f32⟩ : BufTy).Contents (Elt F)) :
    val_main_v48 (F := F) x0 x1 x2 x3 x4 = dot2 (val_main_v47 (F := F) x0 x1 x2 x3) x4 := rfl

/-- The row maxima as the reference takes them: the reduce from −∞, joined with −∞ once more. -/
def rowMax (z : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x40_S100000_d1 h_S_)

/-- The logits with their row's maximum taken off. -/
def shifted (z : (⟨S100000x40, .f32⟩ : BufTy).Contents (Elt F)) : (⟨S100000x40, .f32⟩ : BufTy).Contents (Elt F) :=
  subf z (broadcastInDim S100000x40 ![0, 1] bcast_S100000x1_S100000x40_0_1
    (broadcastInDim S100000x1 ![0] bcast_S100000_S100000x1_0 (rowMax z)))

/-- The reference's row-wise log-softmax of any logits. -/
def logSoftmaxRows (z : (⟨S100000x40, .f32⟩ : BufTy).Contents (Elt F)) : (⟨S100000x40, .f32⟩ : BufTy).Contents (Elt F) :=
  subf (shifted z) (broadcastInDim S100000x40 ![0, 1] bcast_S100000x1_S100000x40_0_1
    (Host.log (broadcastInDim S100000x1 ![0] bcast_S100000_S100000x1_0
      (Host.reduceAdd (Host.exp (shifted z)) (constant S_ .f32 0x00000000#32) reducesTo_S100000x40_S100000_d1 h_S_))))

/-- The reference's result is `logSoftmaxRows` of its biased second aggregation. -/
theorem val_main_v91_eq (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F)) (x4 : (⟨S16x40, .f32⟩ : BufTy).Contents (Elt F))
    (x5 : (⟨S40, .f32⟩ : BufTy).Contents (Elt F)) :
    val_main_v91 (F := F) x0 x1 x2 x3 x4 x5 = logSoftmaxRows (val_main_v90 (F := F) x0 x1 x2 x3 x4 x5) := rfl

/-- One aggregation of the first layer on ANY node features `h : [100000,16]`: gather the source rows, weight each by
    its edge's `norm`, add into the destination rows from zero, add the bias row, clamp at zero. The index arrays and the
    weights are the reference's own stages of the edge array. -/
def layer1Act (h : (⟨S100000x16, .f32⟩ : BufTy).Contents (Elt F)) (x1 : (⟨S2x3200000, .i32⟩ : BufTy).Contents (Elt F))
    (x3 : (⟨S16, .f32⟩ : BufTy).Contents (Elt F)) : (⟨S100000x16, .f32⟩ : BufTy).Contents (Elt F) :=
  maximumf
    (addf
      (Host.scatterAdd scatter_S100000x16_S3300000x1_S3300000x16_1_0_0_1 (val_main_v41 (F := F)) (val_main_v42 (F := F) x1)
        (mulf (Host.gather gather_S100000x16_S3300000x1_S3300000x16_1_0_n_n_0_1_116 h (val_main_v36 (F := F) x1)) (val_main_v39 (F := F) x1)))
      (val_main_v45 (F := F) x3))
    (val_main_call1_v0 (F := F))

/-- The reference's activated first layer is `layer1Act` of its first product. -/
theorem val_main_v47_eq (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F)) :
    val_main_v47 (F := F) x0 x1 x2 x3 = layer1Act (val_main_v4 (F := F) x0 x2) x1 x3 := rfl

/-- The second layer's aggregation on ANY node features `h : [100000,40]`: gather, weight by `norm`, add into the
    destination rows from zero (its bias is added afterwards). -/
def agg2 (h : (⟨S100000x40, .f32⟩ : BufTy).Contents (Elt F)) (x1 : (⟨S2x3200000, .i32⟩ : BufTy).Contents (Elt F)) :
    (⟨S100000x40, .f32⟩ : BufTy).Contents (Elt F) :=
  Host.scatterAdd scatter_S100000x40_S3300000x1_S3300000x40_1_0_0_1 (val_main_v85 (F := F)) (val_main_v86 (F := F) x1)
    (mulf (Host.gather gather_S100000x40_S3300000x1_S3300000x40_1_0_n_n_0_1_140 h (val_main_v80 (F := F) x1)) (val_main_v83 (F := F) x1))

/-- The reference's second aggregation is `agg2` of its second product. -/
theorem val_main_v87_eq (x0 : (⟨S100000x512, .f32⟩ : BufTy).Contents (Elt F)) (x1 : (⟨S2x3200000, .i32⟩ : BufTy).Contents (Elt F))
    (x2 : (⟨S512x16, .f32⟩ : BufTy).Contents (Elt F)) (x3 : (⟨S16, .f32⟩ : BufTy).Contents (Elt F)) (x4 : (⟨S16x40, .f32⟩ : BufTy).Contents (Elt F)) :
    val_main_v87 (F := F) x0 x1 x2 x3 x4 = agg2 (val_main_v48 (F := F) x0 x1 x2 x3 x4) x1 := rfl

/-- The second pass recomputes the sources, the destinations and the weights by the same operations of the same edge
    array: the same arrays. -/
theorem val_main_v50_eq (x1 : (⟨S2x3200000, .i32⟩ : BufTy).Contents (Elt F)) : val_main_v50 (F := F) x1 = val_main_v6 (F := F) x1 := rfl
theorem val_main_v51_eq (x1 : (⟨S2x3200000, .i32⟩ : BufTy).Contents (Elt F)) : val_main_v51 (F := F) x1 = val_main_v7 (F := F) x1 := rfl
theorem val_main_v74_eq (x1 : (⟨S2x3200000, .i32⟩ : BufTy).Contents (Elt F)) : val_main_v74 (F := F) x1 = val_main_v30 (F := F) x1 := rfl

/-- A bias row `[1,40]` spread over the 100000 rows, as the reference's last broadcast does. -/
def spreadRow (r : (⟨S1x40, .f32⟩ : BufTy).Contents (Elt F)) : (⟨S100000x40, .f32⟩ : BufTy).Contents (Elt F) :=
  broadcastInDim S100000x40 ![0, 1] bcast_S1x40_S100000x40_0_1 r

end Cert.ReferenceIdeal.Stages

end
-- ==== Proof.KernelFold.lean ====
/-
  The idealized kernel's buffers at the boundaries of its host stretches, read back in the reference's own vocabulary.
  Both programs build the edge lists with self-loops (sources `s`, destinations `d`), the degrees `deg v = Σ_{e : d e = v} 1`,
  `dinv = deg^(-1/2)` where `deg > 0` and `0` elsewhere, and the edge weights `norm e = dinv (s e) · dinv (d e)` by the SAME
  host operations of the edge array; so each of these buffers of the kernel IS the reference's stage of that name, as a
  function of the edge array, and nothing about gathers or scatter-adds is opened. The two aggregations
  `h ↦ relu (Σ_{e : d e = ·} norm e · h (s e) + b₁)` and `h ↦ Σ_{e : d e = ·} norm e · h (s e)` are likewise the reference's,
  applied to whatever node features the preceding region left. A buffer that no later operation or region writes keeps
  its contents to the end.
-/
import proofs.«146416_j58969900974604_1_alg».proof.Proof.Gen.KernelIdeal.Frame
import proofs.«146416_j58969900974604_1_alg».proof.Proof.RefStages
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A reference that no operation of a host stretch writes holds after the stretch what it held before. -/
macro "unwritten" : tactic => `(tactic|
  (refine StableHlo.after_of_forall_not_mem _ _ (List.forall_iff_forall_mem.mp ?_)
   simp only [hostOps0, hostOps0_1, hostOps0_2, hostOps1, hostOps1_1, hostOps2, List.flatten_cons, List.flatten_nil,
     List.append_nil, List.cons_append, List.nil_append, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

/-- The edge array as launched. -/
abbrev edges (c : Dev nD) : Buf (Elt F) ((c.tc : Thread nD τ).loc main_arg1) := m ((c.tc : Thread nD τ).loc main_arg1)

/-! ## The first stretch: sources, destinations, where the degree is positive, its inverse square root -/

theorem W1_v5 (c : Dev nD) : W1 m ρ c (Proc.devRef .tc main_v5) = Cert.ReferenceIdeal.Read.val_main_v6 (F := F) (edges m c) := by
  show StableHlo.after hostOps0 (W0 m ρ c) (Proc.devRef .tc main_v5) = _
  after_results
  rfl

theorem W1_v6 (c : Dev nD) : W1 m ρ c (Proc.devRef .tc main_v6) = Cert.ReferenceIdeal.Read.val_main_v7 (F := F) (edges m c) := by
  show StableHlo.after hostOps0 (W0 m ρ c) (Proc.devRef .tc main_v6) = _
  after_results
  rfl

theorem W1_v12 (c : Dev nD) : W1 m ρ c (Proc.devRef .tc main_v12) = Cert.ReferenceIdeal.Read.val_main_v13 (F := F) (edges m c) := by
  show StableHlo.after hostOps0 (W0 m ρ c) (Proc.devRef .tc main_v12) = _
  after_results
  rfl

theorem W1_v13 (c : Dev nD) : W1 m ρ c (Proc.devRef .tc main_v13) = Cert.ReferenceIdeal.Read.val_main_v14 (F := F) (edges m c) := by
  show StableHlo.after hostOps0 (W0 m ρ c) (Proc.devRef .tc main_v13) = _
  after_results
  rfl

theorem W1_cst2 (c : Dev nD) : W1 m ρ c (Proc.devRef .tc main_cst_2) = Cert.ReferenceIdeal.Read.val_main_cst_2 (F := F) := by
  show StableHlo.after hostOps0 (W0 m ρ c) (Proc.devRef .tc main_cst_2) = _
  after_results
  rfl

/-! ## The second stretch: `dinv`, the inverse square root where the degree is positive and zero elsewhere -/

set_option maxHeartbeats 4000000 in
theorem W2_v14 (c : Dev nD) : W2 m ρ c (Proc.devRef .tc main_v14) = Cert.ReferenceIdeal.Read.val_main_v15 (F := F) (edges m c) := by
  show StableHlo.after hostOps0_1 (W1 m ρ c) (Proc.devRef .tc main_v14) = _
  generalize hV : W1 m ρ c = V
  after_results
  subst hV
  rw [W1_v12, W1_v13, W1_cst2]
  rfl

theorem W2_v5 (c : Dev nD) : W2 m ρ c (Proc.devRef .tc main_v5) = Cert.ReferenceIdeal.Read.val_main_v6 (F := F) (edges m c) :=
  (show W2 m ρ c (Proc.devRef .tc main_v5) = W1 m ρ c (Proc.devRef .tc main_v5) by unwritten).trans (W1_v5 m ρ c)

theorem W2_v6 (c : Dev nD) : W2 m ρ c (Proc.devRef .tc main_v6) = Cert.ReferenceIdeal.Read.val_main_v7 (F := F) (edges m c) :=
  (show W2 m ρ c (Proc.devRef .tc main_v6) = W1 m ρ c (Proc.devRef .tc main_v6) by unwritten).trans (W1_v6 m ρ c)

/-! ## The third stretch: the edge weights `norm e = dinv (s e) · dinv (d e)` -/

set_option maxHeartbeats 4000000 in
theorem W3_v29 (c : Dev nD) : W3 m ρ c (Proc.devRef .tc main_v29) = Cert.ReferenceIdeal.Read.val_main_v30 (F := F) (edges m c) := by
  show StableHlo.after hostOps0_2 (W2 m ρ c) (Proc.devRef .tc main_v29) = _
  generalize hV : W2 m ρ c = V
  after_results_simp
  subst hV
  rw [W2_v14, W2_v5, W2_v6]
  rfl

/-! ## What the later stretches find: the index arrays, the weights and the arguments as they were -/

theorem W4_v5 (c : Dev nD) : W4 m ρ c (Proc.devRef .tc main_v5) = Cert.ReferenceIdeal.Read.val_main_v6 (F := F) (edges m c) :=
  (W4_of_ne m ρ c main_v5 (by decide)).trans ((show W3 m ρ c (Proc.devRef .tc main_v5) = W2 m ρ c (Proc.devRef .tc main_v5) by unwritten).trans (W2_v5 m ρ c))

theorem W4_v6 (c : Dev nD) : W4 m ρ c (Proc.devRef .tc main_v6) = Cert.ReferenceIdeal.Read.val_main_v7 (F := F) (edges m c) :=
  (W4_of_ne m ρ c main_v6 (by decide)).trans ((show W3 m ρ c (Proc.devRef .tc main_v6) = W2 m ρ c (Proc.devRef .tc main_v6) by unwritten).trans (W2_v6 m ρ c))

theorem W4_v29 (c : Dev nD) : W4 m ρ c (Proc.devRef .tc main_v29) = Cert.ReferenceIdeal.Read.val_main_v30 (F := F) (edges m c) :=
  (W4_of_ne m ρ c main_v29 (by decide)).trans (W3_v29 m ρ c)

/-- The first bias, unwritten up to region 0's exit. -/
theorem W4_keeps_arg3 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by unwritten
    _ = W1 m ρ c (Proc.devRef .tc main_arg3) := by unwritten
    _ = W0 m ρ c (Proc.devRef .tc main_arg3) := by unwritten

/-- The second weight matrix, unwritten up to region 1's entry. -/
theorem W6_keeps_arg4 (c : Dev nD) : W6 m ρ c (Proc.devRef .tc main_arg4) = W0 m ρ c (Proc.devRef .tc main_arg4) :=
  calc W6 m ρ c (Proc.devRef .tc main_arg4)
    _ = W5 m ρ c (Proc.devRef .tc main_arg4) := by unwritten
    _ = W4 m ρ c (Proc.devRef .tc main_arg4) := by unwritten
    _ = W3 m ρ c (Proc.devRef .tc main_arg4) := W4_of_ne m ρ c main_arg4 (by decide)
    _ = W2 m ρ c (Proc.devRef .tc main_arg4) := by unwritten
    _ = W1 m ρ c (Proc.devRef .tc main_arg4) := by unwritten
    _ = W0 m ρ c (Proc.devRef .tc main_arg4) := by unwritten

/-- The second bias, unwritten up to region 1's exit. -/
theorem W7_keeps_arg5 (c : Dev nD) : W7 m ρ c (Proc.devRef .tc main_arg5) = W0 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := by unwritten
    _ = W4 m ρ c (Proc.devRef .tc main_arg5) := by unwritten
    _ = W3 m ρ c (Proc.devRef .tc main_arg5) := W4_of_ne m ρ c main_arg5 (by decide)
    _ = W2 m ρ c (Proc.devRef .tc main_arg5) := by unwritten
    _ = W1 m ρ c (Proc.devRef .tc main_arg5) := by unwritten
    _ = W0 m ρ c (Proc.devRef .tc main_arg5) := by unwritten

/-- The node features, unwritten up to region 0's entry. -/
theorem W3_keeps_arg0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by unwritten
    _ = W1 m ρ c (Proc.devRef .tc main_arg0) := by unwritten
    _ = W0 m ρ c (Proc.devRef .tc main_arg0) := by unwritten

/-- The first weight matrix, unwritten up to region 0's entry. -/
theorem W3_keeps_arg2 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by unwritten
    _ = W1 m ρ c (Proc.devRef .tc main_arg2) := by unwritten
    _ = W0 m ρ c (Proc.devRef .tc main_arg2) := by unwritten

/-- The sources, unwritten from region 0's exit to region 1's exit. -/
theorem W7_keeps_v5 (c : Dev nD) : W7 m ρ c (Proc.devRef .tc main_v5) = W4 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := by unwritten
    _ = W4 m ρ c (Proc.devRef .tc main_v5) := by unwritten

/-- The destinations, likewise. -/
theorem W7_keeps_v6 (c : Dev nD) : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := by unwritten
    _ = W4 m ρ c (Proc.devRef .tc main_v6) := by unwritten

/-- The edge weights, likewise. -/
theorem W7_keeps_v29 (c : Dev nD) : W7 m ρ c (Proc.devRef .tc main_v29) = W4 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := by unwritten
    _ = W4 m ρ c (Proc.devRef .tc main_v29) := by unwritten

theorem W7_v5 (c : Dev nD) : W7 m ρ c (Proc.devRef .tc main_v5) = Cert.ReferenceIdeal.Read.val_main_v6 (F := F) (edges m c) := (W7_keeps_v5 m ρ c).trans (W4_v5 m ρ c)
theorem W7_v6 (c : Dev nD) : W7 m ρ c (Proc.devRef .tc main_v6) = Cert.ReferenceIdeal.Read.val_main_v7 (F := F) (edges m c) := (W7_keeps_v6 m ρ c).trans (W4_v6 m ρ c)
theorem W7_v29 (c : Dev nD) : W7 m ρ c (Proc.devRef .tc main_v29) = Cert.ReferenceIdeal.Read.val_main_v30 (F := F) (edges m c) := (W7_keeps_v29 m ρ c).trans (W4_v29 m ρ c)

/-! ## Between regions 0 and 1: the first aggregation, its bias and the clamp, on what region 0 left -/

set_option maxHeartbeats 4000000 in
theorem W6_v47 (c : Dev nD) :
    W6 m ρ c (Proc.devRef .tc main_v47) = Cert.ReferenceIdeal.Stages.layer1Act (F := F) (W4 m ρ c (Proc.devRef .tc main_v30)) (edges m c) (m ((c.tc : Thread nD τ).loc main_arg3)) := by
  show StableHlo.after hostOps1_1 (StableHlo.after hostOps1 (W4 m ρ c)) (Proc.devRef .tc main_v47) = _
  generalize hV : W4 m ρ c = V
  after_results_simp
  subst hV
  rw [W4_v5, W4_v6, W4_v29, W4_keeps_arg3]
  rfl

/-! ## Between regions 1 and 2: the second aggregation on what region 1 left, and the second bias as a row -/

set_option maxHeartbeats 4000000 in
theorem W8_v61 (c : Dev nD) :
    W8 m ρ c (Proc.devRef .tc main_v61) = Cert.ReferenceIdeal.Stages.agg2 (F := F) (W7 m ρ c (Proc.devRef .tc main_v48)) (edges m c) := by
  show StableHlo.after hostOps2 (W7 m ρ c) (Proc.devRef .tc main_v61) = _
  generalize hV : W7 m ρ c = V
  after_results_simp
  subst hV
  rw [W7_v5, W7_v6, W7_v29, ← Cert.ReferenceIdeal.Stages.val_main_v50_eq, ← Cert.ReferenceIdeal.Stages.val_main_v51_eq, ← Cert.ReferenceIdeal.Stages.val_main_v74_eq]
  rfl

theorem W8_v62 (c : Dev nD) :
    W8 m ρ c (Proc.devRef .tc main_v62) = shapeCast S1x40 (m ((c.tc : Thread nD τ).loc main_arg5)) shapeCasts_S40_S1x40 := by
  show StableHlo.after hostOps2 (W7 m ρ c) (Proc.devRef .tc main_v62) = _
  after_results
  rw [W7_keeps_arg5]
  rfl

/-- A vector of 40 viewed as one row is the vector broadcast along a new leading axis of extent one; spread over the
    rows, both are the reference's bias array. -/
theorem spread_row (b : (⟨S40, .f32⟩ : BufTy).Contents (Elt F)) :
    Cert.ReferenceIdeal.Stages.spreadRow (F := F) (shapeCast S1x40 b shapeCasts_S40_S1x40) = Cert.ReferenceIdeal.Read.val_main_v89 (F := F) b := by
  have e : shapeCast S1x40 b shapeCasts_S40_S1x40 = Cert.ReferenceIdeal.Read.val_main_v88 (F := F) b := by
    funext i
    rw [Cert.ReferenceIdeal.Read.val_main_v88_apply]
    refine (shapeCast_addUnit_apply (![40] : Fin 1 → Nat) b shapeCasts_S40_S1x40 i).trans (congrArg b ?_)
    funext a
    match a with
    | ⟨0, _⟩ => exact Fin.ext rfl
  unfold Cert.ReferenceIdeal.Stages.spreadRow Cert.ReferenceIdeal.Read.val_main_v89
  rw [e]

end Cert.KernelIdeal.Fold

end
-- ==== Proof.MatmulRegions.lean ====
/-
  The two matrix-product regions of the kernel, each read as ONE product of whole arrays.

  A region walks 20 points; at point `t` it loads rows `5000 t … 5000 t + 4999` of its left operand and the whole right
  operand, multiplies them on the matrix unit into a zero accumulator, and writes the 5000 resulting rows back as
  block `t` of its output array. Over the extended reals the narrowing of the operands to bf16 is the identity and the
  matrix unit's result at `(j, q)` is the plain sum over `k` of `left (j, k) · right (k, q)`. Row `5000 t + j` of the
  full product reads only row `5000 t + j` of the left operand, which is row `j` of the block, so what point `t` writes
  back is block `t` of the full product; the 20 blocks tile the 100000 rows (row `r` lies in block `r / 5000`), hence
  the output array ends holding the full product. That product is the reference's `dot_general` of the same
  operands, whose entry `(p, q)` is the same sum over `k`.
-/
import proofs.«146416_j58969900974604_1_alg».proof.Proof.Gen.KernelIdeal.Frame
import proofs.«146416_j58969900974604_1_alg».proof.Proof.RefStages
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.MatmulRegions

open Cert.KernelIdeal Cert.KernelIdeal.Gen

/-- The zero offsets of a whole-block access, however they are spelt. -/
theorem zero_off : (![0, 0] : Fin 2 → Nat) = fun _ => 0 := funext fun a => by fin_cases a <;> rfl

/-! ## Region 0: a block of 5000 rows of `x` times the whole `W₁` -/

/-- The left operand's index of the block product at output `j` and contraction position `q`: its row is `j`'s. -/
theorem lhs_blk0_0 (j : S5000x16.Idx) (q : dot_S5000x512_S512x16_S5000x16_1_0_0_1_n_n.contr.Idx) :
    (dot_S5000x512_S512x16_S5000x16_1_0_0_1_n_n.lhsIdx j q 0).val = (j 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
/-- … and its column is the contraction position. -/
theorem lhs_blk0_1 (j : S5000x16.Idx) (q : dot_S5000x512_S512x16_S5000x16_1_0_0_1_n_n.contr.Idx) :
    (dot_S5000x512_S512x16_S5000x16_1_0_0_1_n_n.lhsIdx j q 1).val = (q ⟨0, by decide⟩).val :=
  dot_S5000x512_S512x16_S5000x16_1_0_0_1_n_n.lhsIdx_val_of_single rfl j q
/-- The right operand's row is the contraction position … -/
theorem rhs_blk0_0 (j : S5000x16.Idx) (q : dot_S5000x512_S512x16_S5000x16_1_0_0_1_n_n.contr.Idx) :
    (dot_S5000x512_S512x16_S5000x16_1_0_0_1_n_n.rhsIdx j q 0).val = (q ⟨0, by decide⟩).val :=
  dot_S5000x512_S512x16_S5000x16_1_0_0_1_n_n.rhsIdx_val_of_single rfl j q
/-- … and its column is `j`'s. -/
theorem rhs_blk0_1 (j : S5000x16.Idx) (q : dot_S5000x512_S512x16_S5000x16_1_0_0_1_n_n.contr.Idx) :
    (dot_S5000x512_S512x16_S5000x16_1_0_0_1_n_n.rhsIdx j q 1).val = (j 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- Entry `(row of j, k)` of a block of `x`. -/
abbrev xblkIdx0 (j : S5000x16.Idx) (k : Fin 512) : S5000x512.Idx := fun a => match a with
  | ⟨0, _⟩ => ⟨(j 0).val, (j 0).isLt⟩
  | ⟨1, _⟩ => ⟨k.val, k.isLt⟩
/-- Entry `(k, column of j)` of `W₁`. -/
abbrev wIdx0 (j : S5000x16.Idx) (k : Fin 512) : S512x16.Idx := fun a => match a with
  | ⟨0, _⟩ => ⟨k.val, k.isLt⟩
  | ⟨1, _⟩ => ⟨(j 1).val, (j 1).isLt⟩

/-- What the body leaves in the output block, entry by entry: the row of the `x` block times the column of `W₁`
    (the narrowing to bf16 changes nothing over the extended reals, and the accumulator starts at zero). -/
theorem out0_apply (x0 : Vec Ideal S5000x512 .f32) (x1 : Vec Ideal S512x16 .f32) (j : S5000x16.Idx) :
    out0_2 (F := Ideal) x0 x1 j = ∑ k : Fin 512, x0 (xblkIdx0 j k) * x1 (wIdx0 j k) := by
  unfold out0_2
  rw [View.canon_unit_zero zero_off]
  simp only [View.ld_unit_zero (S := S5000x512) zero_off, View.ld_unit_zero (S := S512x16) zero_off]
  unfold k0_pay1
  simp only [matmul, truncf]
  rw [Ideal.matmul_constant_zero_apply, ← Equiv.sum_comp (ValueIdx.contrEquiv1 dot_S5000x512_S512x16_S5000x16_1_0_0_1_n_n 512 rfl rfl).symm]
  refine Finset.sum_congr rfl fun k _ => ?_
  have hk := ValueIdx.contrEquiv1_symm_val dot_S5000x512_S512x16_S5000x16_1_0_0_1_n_n 512 rfl rfl k
  have el : dot_S5000x512_S512x16_S5000x16_1_0_0_1_n_n.lhsIdx j ((ValueIdx.contrEquiv1 dot_S5000x512_S512x16_S5000x16_1_0_0_1_n_n 512 rfl rfl).symm k) = xblkIdx0 j k := funext fun a => Fin.ext (by
    match a with
    | ⟨0, _⟩ => exact lhs_blk0_0 _ _
    | ⟨1, _⟩ => exact (lhs_blk0_1 _ _).trans hk)
  have er : dot_S5000x512_S512x16_S5000x16_1_0_0_1_n_n.rhsIdx j ((ValueIdx.contrEquiv1 dot_S5000x512_S512x16_S5000x16_1_0_0_1_n_n 512 rfl rfl).symm k) = wIdx0 j k := funext fun a => Fin.ext (by
    match a with
    | ⟨0, _⟩ => exact (rhs_blk0_0 _ _).trans hk
    | ⟨1, _⟩ => exact rhs_blk0_1 _ _)
  rw [el, er]
  rfl

variable (V : (c : Dev nD) → (b : Ref sig .tc) → Buf (Elt Ideal) ((c : Thread nD τ).loc b))

/-- Region 0's index maps over its 20 points: the `x` window and the output window are at row block `t`, column
    block 0; the `W₁` window stays at block (0, 0). -/
theorem idx_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The `x` window's block at point `t` is rows `5000 t … 5000 t + 4999` of `x`. -/
theorem xblk0_apply (c : Dev nD) (t : Fin cfg0.N) (y : S5000x512.Idx) (k : S100000x512.Idx)
    (hk0 : (k 0).val = 5000 * t.val + (y 0).val) (hk1 : (k 1).val = (y 1).val) :
    (iblk0 V c 0 t : Vec Ideal S5000x512 .f32) y = (V c main_arg0 : S100000x512.Idx → Elt Ideal .f32) k := by
  obtain ⟨e0, e1, -, -, -, -⟩ := idx_maps0 t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 512 + 1 * (y 1).val = (k 1).val; rw [e1, hk1]; omega

/-- The `W₁` window's block, at every point, is `W₁`. -/
theorem wblk0_apply (c : Dev nD) (t : Fin cfg0.N) (y : S512x16.Idx) (k : S512x16.Idx)
    (hk0 : (k 0).val = (y 0).val) (hk1 : (k 1).val = (y 1).val) :
    (iblk0 V c 1 t : Vec Ideal S512x16 .f32) y = (V c main_arg2 : S512x16.Idx → Elt Ideal .f32) k := by
  obtain ⟨-, -, e2, e3, -, -⟩ := idx_maps0 t
  unfold iblk0
  rw [View.read_apply]
  show V c main_arg2 _ = V c main_arg2 _
  congr 1
  funext a
  apply Fin.ext
  match a with
  | ⟨0, _⟩ => show win0_1.index t (0 : Fin 2) * 512 + 1 * (y 0).val = (k 0).val; rw [e2, hk0]; omega
  | ⟨1, _⟩ => show win0_1.index t (1 : Fin 2) * 16 + 1 * (y 1).val = (k 1).val; rw [e3, hk1]; omega

/-- Entry `(row of i, k)` of `x`. -/
abbrev xIdx0 (i : S100000x16.Idx) (k : Fin 512) : S100000x512.Idx := fun a => match a with
  | ⟨0, _⟩ => ⟨(i 0).val, (i 0).isLt⟩
  | ⟨1, _⟩ => ⟨k.val, k.isLt⟩
/-- Entry `(k, column of i)` of `W₁`. -/
abbrev w1Idx0 (i : S100000x16.Idx) (k : Fin 512) : S512x16.Idx := fun a => match a with
  | ⟨0, _⟩ => ⟨k.val, k.isLt⟩
  | ⟨1, _⟩ => ⟨(i 1).val, (i 1).isLt⟩

/-- The first layer's product `x · W₁`, entry by entry: row `p` of `x` times column `q` of `W₁`. -/
def prod0 (x : Vec Ideal S100000x512 .f32) (w : Vec Ideal S512x16 .f32) : Vec Ideal S100000x16 .f32 :=
  fun i => ∑ k : Fin 512, x (xIdx0 i k) * w (w1Idx0 i k)

/-- What point `t` writes back is block `t` of `x · W₁`: output row `j` of the block is row `5000 t + j` of the
    product, which only reads row `5000 t + j` of `x`, that is row `j` of the `x` block. -/
theorem flushed0_eq (c : Dev nD) (t : Fin cfg0.N) :
    (dat0 (F := Ideal) V c).flushed 2 t
      = ((cfg0.win 2).blk t).view.read (Elt Ideal) (prod0 (V c main_arg0) (V c main_arg2)) := by
  show (cfg0.win 2).cut (grid0.coords t) ((dat0 (F := Ideal) V c).after 2 t) = _
  rw [after0_2]
  obtain ⟨-, -, -, -, e4, e5⟩ := idx_maps0 t
  funext j
  show out0_2 (F := Ideal) (iblk0 V c 0 t) (iblk0 V c 1 t) j
    = prod0 (V c main_arg0) (V c main_arg2) (((cfg0.win 2).blk t).view.emb j)
  refine (out0_apply (iblk0 V c 0 t) (iblk0 V c 1 t) j).trans ?_
  unfold prod0
  refine Finset.sum_congr rfl fun k _ => ?_
  have hx := xblk0_apply V c t (xblkIdx0 j k) (xIdx0 (((cfg0.win 2).blk t).view.emb j) k)
    (by show win0_2.index t (0 : Fin 2) * 5000 + 1 * (j 0).val = 5000 * t.val + (j 0).val; rw [e4]; omega) rfl
  have hw := wblk0_apply V c t (wIdx0 j k) (w1Idx0 (((cfg0.win 2).blk t).view.emb j) k) rfl
    (by show win0_2.index t (1 : Fin 2) * 16 + 1 * (j 1).val = (j 1).val; rw [e5]; omega)
  rw [hx, hw]

/-- An index of the output array is in point `t`'s block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- The 20 blocks of 5000 rows tile the 100000 rows: row `r` is in the block of point `r / 5000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := rfl
  let t : Fin cfg0.N := ⟨(i 0).val / 5000, by rw [hN]; omega⟩
  obtain ⟨-, -, -, -, e4, e5⟩ := idx_maps0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 16 ≤ (i 1).val ∧ (i 1).val < win0_2.index t (1 : Fin 2) * 16 + 16; rw [e5]; omega

/-- Region 0's output array after its 20 points is `x · W₁` of the arrays the region found. -/
theorem arr0_prod (c : Dev nD) :
    (dat0 (F := Ideal) V c).arrAt 2 cfg0.N = prod0 (V c main_arg0) (V c main_arg2) :=
  (dat0 (F := Ideal) V c).arrAt_eq_of_cover 2 (prod0 (V c main_arg0) (V c main_arg2))
    (fun t _ => flushed0_eq V c t) cover0

/-- The reference's first product is `x · W₁`: its `dot_general` contracts the columns of `x` with the rows of `W₁`. -/
theorem ref_prod0 (x : Vec Ideal S100000x512 .f32) (w : Vec Ideal S512x16 .f32) :
    Cert.ReferenceIdeal.Read.val_main_v4 (F := Ideal) x w = prod0 x w := by
  funext i
  rw [Cert.ReferenceIdeal.Read.val_main_v4_apply]
  unfold prod0
  refine Finset.sum_congr rfl fun k _ => ?_
  have el : Cert.ReferenceIdeal.Read.lidx_main_v4 i k = xIdx0 i k := funext fun a => by
    match a with
    | ⟨0, _⟩ => rfl
    | ⟨1, _⟩ => rfl
  have er : Cert.ReferenceIdeal.Read.ridx_main_v4 i k = w1Idx0 i k := funext fun a => by
    match a with
    | ⟨0, _⟩ => rfl
    | ⟨1, _⟩ => rfl
  rw [el, er]

/-- Region 0's output array after its 20 points is the reference's first product of the arrays the region found. -/
theorem arr0 (c : Dev nD) :
    (dat0 (F := Ideal) V c).arrAt 2 cfg0.N
      = Cert.ReferenceIdeal.Read.val_main_v4 (F := Ideal) (V c main_arg0) (V c main_arg2) :=
  (arr0_prod V c).trans (ref_prod0 (V c main_arg0) (V c main_arg2)).symm

/-! ## Region 1: a block of 5000 rows of the activations times the whole `W₂` -/

/-- The left operand's index of the block product at output `j` and contraction position `q`: its row is `j`'s. -/
theorem lhs_blk1_0 (j : S5000x40.Idx) (q : dot_S5000x16_S16x40_S5000x40_1_0_0_1_n_n.contr.Idx) :
    (dot_S5000x16_S16x40_S5000x40_1_0_0_1_n_n.lhsIdx j q 0).val = (j 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
/-- … and its column is the contraction position. -/
theorem lhs_blk1_1 (j : S5000x40.Idx) (q : dot_S5000x16_S16x40_S5000x40_1_0_0_1_n_n.contr.Idx) :
    (dot_S5000x16_S16x40_S5000x40_1_0_0_1_n_n.lhsIdx j q 1).val = (q ⟨0, by decide⟩).val :=
  dot_S5000x16_S16x40_S5000x40_1_0_0_1_n_n.lhsIdx_val_of_single rfl j q
/-- The right operand's row is the contraction position … -/
theorem rhs_blk1_0 (j : S5000x40.Idx) (q : dot_S5000x16_S16x40_S5000x40_1_0_0_1_n_n.contr.Idx) :
    (dot_S5000x16_S16x40_S5000x40_1_0_0_1_n_n.rhsIdx j q 0).val = (q ⟨0, by decide⟩).val :=
  dot_S5000x16_S16x40_S5000x40_1_0_0_1_n_n.rhsIdx_val_of_single rfl j q
/-- … and its column is `j`'s. -/
theorem rhs_blk1_1 (j : S5000x40.Idx) (q : dot_S5000x16_S16x40_S5000x40_1_0_0_1_n_n.contr.Idx) :
    (dot_S5000x16_S16x40_S5000x40_1_0_0_1_n_n.rhsIdx j q 1).val = (j 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- Entry `(row of j, k)` of a block of the activations. -/
abbrev hblkIdx1 (j : S5000x40.Idx) (k : Fin 16) : S5000x16.Idx := fun a => match a with
  | ⟨0, _⟩ => ⟨(j 0).val, (j 0).isLt⟩
  | ⟨1, _⟩ => ⟨k.val, k.isLt⟩
/-- Entry `(k, column of j)` of `W₂`. -/
abbrev wIdx1 (j : S5000x40.Idx) (k : Fin 16) : S16x40.Idx := fun a => match a with
  | ⟨0, _⟩ => ⟨k.val, k.isLt⟩
  | ⟨1, _⟩ => ⟨(j 1).val, (j 1).isLt⟩

/-- What the body leaves in the output block, entry by entry: the row of the activations' block times the column of
    `W₂` (the cast of the block to its own shape and the narrowing to bf16 change nothing, and the accumulator
    starts at zero). -/
theorem out1_apply (x0 : Vec Ideal S5000x16 .f32) (x1 : Vec Ideal S16x40 .f32) (j : S5000x40.Idx) :
    out1_2 (F := Ideal) x0 x1 j = ∑ k : Fin 16, x0 (hblkIdx1 j k) * x1 (wIdx1 j k) := by
  unfold out1_2
  rw [View.canon_unit_zero zero_off]
  simp only [View.ld_unit_zero (S := S5000x16) zero_off, View.ld_unit_zero (S := S16x40) zero_off]
  unfold k1_pay1
  simp only [matmul, shapeCast_self]
  rw [Ideal.matmul_constant_zero_apply, ← Equiv.sum_comp (ValueIdx.contrEquiv1 dot_S5000x16_S16x40_S5000x40_1_0_0_1_n_n 16 rfl rfl).symm]
  refine Finset.sum_congr rfl fun k _ => ?_
  have hk := ValueIdx.contrEquiv1_symm_val dot_S5000x16_S16x40_S5000x40_1_0_0_1_n_n 16 rfl rfl k
  have el : dot_S5000x16_S16x40_S5000x40_1_0_0_1_n_n.lhsIdx j ((ValueIdx.contrEquiv1 dot_S5000x16_S16x40_S5000x40_1_0_0_1_n_n 16 rfl rfl).symm k) = hblkIdx1 j k := funext fun a => Fin.ext (by
    match a with
    | ⟨0, _⟩ => exact lhs_blk1_0 _ _
    | ⟨1, _⟩ => exact (lhs_blk1_1 _ _).trans hk)
  have er : dot_S5000x16_S16x40_S5000x40_1_0_0_1_n_n.rhsIdx j ((ValueIdx.contrEquiv1 dot_S5000x16_S16x40_S5000x40_1_0_0_1_n_n 16 rfl rfl).symm k) = wIdx1 j k := funext fun a => Fin.ext (by
    match a with
    | ⟨0, _⟩ => exact (rhs_blk1_0 _ _).trans hk
    | ⟨1, _⟩ => exact rhs_blk1_1 _ _)
  rw [el, er]
  rfl

/-- Region 1's index maps over its 20 points: the activations' window and the output window are at row block `t`,
    column block 0; the `W₂` window stays at block (0, 0). -/
theorem idx_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The activations' window's block at point `t` is rows `5000 t … 5000 t + 4999` of the activations. -/
theorem hblk1_apply (c : Dev nD) (t : Fin cfg1.N) (y : S5000x16.Idx) (k : S100000x16.Idx)
    (hk0 : (k 0).val = 5000 * t.val + (y 0).val) (hk1 : (k 1).val = (y 1).val) :
    (iblk1 V c 0 t : Vec Ideal S5000x16 .f32) y = (V c main_v47 : S100000x16.Idx → Elt Ideal .f32) k := by
  obtain ⟨e0, e1, -, -, -, -⟩ := idx_maps1 t
  unfold iblk1
  rw [View.read_apply]
  show V c main_v47 _ = V c main_v47 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 16 + 1 * (y 1).val = (k 1).val; rw [e1, hk1]; omega

/-- The `W₂` window's block, at every point, is `W₂`. -/
theorem wblk1_apply (c : Dev nD) (t : Fin cfg1.N) (y : S16x40.Idx) (k : S16x40.Idx)
    (hk0 : (k 0).val = (y 0).val) (hk1 : (k 1).val = (y 1).val) :
    (iblk1 V c 1 t : Vec Ideal S16x40 .f32) y = (V c main_arg4 : S16x40.Idx → Elt Ideal .f32) k := by
  obtain ⟨-, -, e2, e3, -, -⟩ := idx_maps1 t
  unfold iblk1
  rw [View.read_apply]
  show V c main_arg4 _ = V c main_arg4 _
  congr 1
  funext a
  apply Fin.ext
  match a with
  | ⟨0, _⟩ => show win1_1.index t (0 : Fin 2) * 16 + 1 * (y 0).val = (k 0).val; rw [e2, hk0]; omega
  | ⟨1, _⟩ => show win1_1.index t (1 : Fin 2) * 40 + 1 * (y 1).val = (k 1).val; rw [e3, hk1]; omega

/-- Entry `(row of i, k)` of the activations. -/
abbrev hIdx1 (i : S100000x40.Idx) (k : Fin 16) : S100000x16.Idx := fun a => match a with
  | ⟨0, _⟩ => ⟨(i 0).val, (i 0).isLt⟩
  | ⟨1, _⟩ => ⟨k.val, k.isLt⟩
/-- Entry `(k, column of i)` of `W₂`. -/
abbrev w2Idx1 (i : S100000x40.Idx) (k : Fin 16) : S16x40.Idx := fun a => match a with
  | ⟨0, _⟩ => ⟨k.val, k.isLt⟩
  | ⟨1, _⟩ => ⟨(i 1).val, (i 1).isLt⟩

/-- The second layer's product `h · W₂` on any left operand `h`, entry by entry. -/
def prod1 (h : Vec Ideal S100000x16 .f32) (w : Vec Ideal S16x40 .f32) : Vec Ideal S100000x40 .f32 :=
  fun i => ∑ k : Fin 16, h (hIdx1 i k) * w (w2Idx1 i k)

/-- What point `t` writes back is block `t` of `h · W₂`: output row `j` of the block is row `5000 t + j` of the
    product, which only reads row `5000 t + j` of `h`, that is row `j` of the block of `h`. -/
theorem flushed1_eq (c : Dev nD) (t : Fin cfg1.N) :
    (dat1 (F := Ideal) V c).flushed 2 t
      = ((cfg1.win 2).blk t).view.read (Elt Ideal) (prod1 (V c main_v47) (V c main_arg4)) := by
  show (cfg1.win 2).cut (grid1.coords t) ((dat1 (F := Ideal) V c).after 2 t) = _
  rw [after1_2]
  obtain ⟨-, -, -, -, e4, e5⟩ := idx_maps1 t
  funext j
  show out1_2 (F := Ideal) (iblk1 V c 0 t) (iblk1 V c 1 t) j
    = prod1 (V c main_v47) (V c main_arg4) (((cfg1.win 2).blk t).view.emb j)
  refine (out1_apply (iblk1 V c 0 t) (iblk1 V c 1 t) j).trans ?_
  unfold prod1
  refine Finset.sum_congr rfl fun k _ => ?_
  have hx := hblk1_apply V c t (hblkIdx1 j k) (hIdx1 (((cfg1.win 2).blk t).view.emb j) k)
    (by show win1_2.index t (0 : Fin 2) * 5000 + 1 * (j 0).val = 5000 * t.val + (j 0).val; rw [e4]; omega) rfl
  have hw := wblk1_apply V c t (wIdx1 j k) (w2Idx1 (((cfg1.win 2).blk t).view.emb j) k) rfl
    (by show win1_2.index t (1 : Fin 2) * 40 + 1 * (j 1).val = (j 1).val; rw [e5]; omega)
  rw [hx, hw]

/-- An index of the output array is in point `t`'s block iff each coordinate is in the block's range on its axis. -/
theorem mem_blk1 (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v48).slice (win1_2.rect t)).set ↔ _
  rw [View.set_slice_whole, Rect.mem_set_unit]
  exact Iff.rfl

/-- The 20 blocks of 5000 rows tile the 100000 rows: row `r` is in the block of point `r / 5000`. -/
theorem cover1 (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 20 := rfl
  let t : Fin cfg1.N := ⟨(i 0).val / 5000, by rw [hN]; omega⟩
  obtain ⟨-, -, -, -, e4, e5⟩ := idx_maps1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 40 ≤ (i 1).val ∧ (i 1).val < win1_2.index t (1 : Fin 2) * 40 + 40; rw [e5]; omega

/-- Region 1's output array after its 20 points is `h · W₂` of the arrays the region found. -/
theorem arr1_prod (c : Dev nD) :
    (dat1 (F := Ideal) V c).arrAt 2 cfg1.N = prod1 (V c main_v47) (V c main_arg4) :=
  (dat1 (F := Ideal) V c).arrAt_eq_of_cover 2 (prod1 (V c main_v47) (V c main_arg4))
    (fun t _ => flushed1_eq V c t) cover1

/-- The reference's second product on any left operand `h` is `h · W₂`: its `dot_general` contracts the columns of
    `h` with the rows of `W₂`. -/
theorem ref_prod1 (h : Vec Ideal S100000x16 .f32) (w : Vec Ideal S16x40 .f32) :
    Cert.ReferenceIdeal.Stages.dot2 (F := Ideal) h w = prod1 h w := by
  funext i
  unfold Cert.ReferenceIdeal.Stages.dot2 prod1
  simp only [Host.dotGeneral]
  rw [Ideal.dotGeneral_apply, ← Equiv.sum_comp (ValueIdx.contrEquiv1 Cert.ReferenceIdeal.dot_S100000x16_S16x40_S100000x40_1_0_0_1_n_n 16 rfl rfl).symm]
  refine Finset.sum_congr rfl fun k _ => ?_
  have hk := ValueIdx.contrEquiv1_symm_val Cert.ReferenceIdeal.dot_S100000x16_S16x40_S100000x40_1_0_0_1_n_n 16 rfl rfl k
  have el : Cert.ReferenceIdeal.dot_S100000x16_S16x40_S100000x40_1_0_0_1_n_n.lhsIdx i ((ValueIdx.contrEquiv1 Cert.ReferenceIdeal.dot_S100000x16_S16x40_S100000x40_1_0_0_1_n_n 16 rfl rfl).symm k) = hIdx1 i k := funext fun a => Fin.ext (by
    match a with
    | ⟨0, _⟩ => exact Cert.ReferenceIdeal.Read.lhs_main_v48_0 _ _
    | ⟨1, _⟩ => exact (Cert.ReferenceIdeal.Read.lhs_main_v48_1 _ _).trans hk)
  have er : Cert.ReferenceIdeal.dot_S100000x16_S16x40_S100000x40_1_0_0_1_n_n.rhsIdx i ((ValueIdx.contrEquiv1 Cert.ReferenceIdeal.dot_S100000x16_S16x40_S100000x40_1_0_0_1_n_n 16 rfl rfl).symm k) = w2Idx1 i k := funext fun a => Fin.ext (by
    match a with
    | ⟨0, _⟩ => exact (Cert.ReferenceIdeal.Read.rhs_main_v48_0 _ _).trans hk
    | ⟨1, _⟩ => exact Cert.ReferenceIdeal.Read.rhs_main_v48_1 _ _)
  rw [el, er]

/-- Region 1's output array is the reference's second product on the region's left operand. -/
theorem arr1 (c : Dev nD) :
    (dat1 (F := Ideal) V c).arrAt 2 cfg1.N
      = Cert.ReferenceIdeal.Stages.dot2 (F := Ideal) (V c main_v47) (V c main_arg4) :=
  (arr1_prod V c).trans (ref_prod1 (V c main_v47) (V c main_arg4)).symm

end Cert.KernelIdeal.MatmulRegions

end
-- ==== Proof.SoftmaxRegion.lean ====
/-
  The third region computes, on each block of 5000 rows, the row-wise log-softmax of its first operand plus one row of
  40 spread over the rows: with l(p, j) = a(p, j) + b(0, j) and M p the maximum over j of l(p, j) taken from −∞, entry
  (p, q) is (l(p, q) − M p) − log Σ_j exp (l(p, j) − M p). The reference spells the same expression over the whole
  array of 100000 rows (its running maximum joined once more with −∞ and its sum started from 0, neither of which
  changes anything). Both are read here index by index against one function of the logits, and the 20 blocks of 5000
  rows tile the array.
-/
import proofs.«146416_j58969900974604_1_alg».proof.Proof.Gen.KernelIdeal.Frame
import proofs.«146416_j58969900974604_1_alg».proof.Proof.RefStages
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.SoftmaxRegion

open Cert.KernelIdeal Cert.KernelIdeal.Gen

/-! ## The function both sides compute, index by index -/

/-- The word both programs start a running maximum from: −∞. -/
abbrev negInf : EReal := Ideal.ofBits .f32 0xFF800000#32

/-- The maximum of row `p` of an array of 40-entry rows, taken from −∞. -/
def rowTop {n : Nat} (z : (⟨2, ![n, 40]⟩ : Shape).Idx → EReal) (p : Fin n) : EReal :=
  (Finset.univ : Finset (Fin 40)).fold max negInf (fun j => z (ix2 p j))

/-- Row-wise log-softmax at `(p, q)`: the entry less its row's maximum, less the logarithm of the row's sum of
    the exponentials of the entries less that maximum. -/
def lsm {n : Nat} (z : (⟨2, ![n, 40]⟩ : Shape).Idx → EReal) (p : Fin n) (q : Fin 40) : EReal :=
  (z (ix2 p q) - rowTop z p) - Ideal.log (∑ j : Fin 40, Ideal.exp (z (ix2 p j) - rowTop z p))

/-- The function depends only on the row: two arrays that agree along row `p` and row `p'` give the same entry. -/
theorem lsm_congr {n n' : Nat} (z : (⟨2, ![n, 40]⟩ : Shape).Idx → EReal) (z' : (⟨2, ![n', 40]⟩ : Shape).Idx → EReal)
    (p : Fin n) (p' : Fin n') (h : ∀ j : Fin 40, z (ix2 p j) = z' (ix2 p' j)) (q : Fin 40) : lsm z p q = lsm z' p' q := by
  have hT : rowTop z p = rowTop z' p' := by
    unfold rowTop
    exact congrArg (fun f => (Finset.univ : Finset (Fin 40)).fold max negInf f) (funext h)
  unfold lsm
  rw [hT, h q]
  exact congrArg (fun s => _ - Ideal.log s) (Finset.sum_congr rfl fun j _ => by rw [h j])

/-! ## Layout steps of a column: `[a] → [a, 1] → [a, b]` -/

section Column
variable {α : Type}

/-- A vector of `a` entries cast to one column reads, at `(p, u)`, entry `p`. -/
theorem shapeCast_col_apply {a : Nat} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- One column broadcast along `b` lanes reads, at `(p, c)`, the column's entry `p`. -/
theorem broadcastTo_col_apply {a b : Nat} (v : (⟨2, ![a, 1]⟩ : Shape).Idx → α) (h : (⟨2, ![a, 1]⟩ : Shape).Broadcasts ⟨2, ![a, b]⟩)
    (hb : a ≠ 1) (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg hb]
  | ⟨1, _⟩ => rfl

end Column

/-! ## The two lane reductions of a block, read along a row -/

/-- Over row `p` of an array reduced along its 40 lanes, the index with lane `k` put back is `(p, k)`. -/
theorem lift_row {a : Nat} (h : (⟨2, ![a, 40]⟩ : Shape).Reduces [1] ⟨1, ![a]⟩) (p : Fin a) (k : Fin 40) :
    h.lift (ix1 p) k = ix2 p k :=
  funext fun c => Fin.ext (by match c with | ⟨0, _⟩ => rfl | ⟨1, _⟩ => rfl)

/-- The block's lane maximum from −∞, at row `p`, is that row's maximum. -/
theorem laneMax_apply (l : FVec Ideal S5000x40 .f32) (h : S5000x40.Reduces [1] S5000) (hφ : FKind.Formats .f32)
    (hm : (0xFF800000#32 : BitVec 32) = FKind.maximumf.neutral .f32 hφ) (p : Fin 5000) :
    multiReduction .maximumf [1] S5000 l 0xFF800000#32 h hφ hm (ix1 p) = rowTop l p := by
  refine (Ideal.multiReduction_maximumf_single l _ h hφ hm (ix1 p)).trans ?_
  unfold rowTop
  exact congrArg (fun f => (Finset.univ : Finset (Fin 40)).fold max negInf f) (funext fun k => congrArg l (lift_row h p k))

/-- The block's lane sum, at row `p`, is the sum along that row. -/
theorem laneSum_apply (e : FVec Ideal S5000x40 .f32) (h : S5000x40.Reduces [1] S5000) (hφ : FKind.Formats .f32)
    (ha : (0x00000000#32 : BitVec 32) = FKind.add.neutral .f32 hφ) (p : Fin 5000) :
    multiReduction .add [1] S5000 e 0x00000000#32 h hφ ha (ix1 p) = ∑ k : Fin 40, e (ix2 p k) := by
  refine (Ideal.multiReduction_add_single e _ h hφ ha (ix1 p)).trans ?_
  exact Finset.sum_congr rfl fun k _ => congrArg e (lift_row h p k)

/-! ## The body's arithmetic at an index -/

/-- The logits less their row's maximum, as the body forms them (lane maximum, cast to a column, broadcast back). -/
theorem shifted_apply (l : FVec Ideal S5000x40 .f32) (h : S5000x40.Reduces [1] S5000) (hc : S5000.ShapeCasts S5000x1)
    (hb : S5000x1.Broadcasts S5000x40) (hφ : FKind.Formats .f32)
    (hm : (0xFF800000#32 : BitVec 32) = FKind.maximumf.neutral .f32 hφ) (p : Fin 5000) (j : Fin 40) :
    subf l (broadcastTo S5000x40 (shapeCast S5000x1 (multiReduction .maximumf [1] S5000 l 0xFF800000#32 h hφ hm) hc) hb) (ix2 p j)
      = l (ix2 p j) - rowTop l p := by
  rw [subf_apply, broadcastTo_col_apply _ hb (by decide) p j, shapeCast_col_apply _ hc p 0, laneMax_apply]

/-- The logarithm of the lane sum of exponentials, as the body forms it (lane sum, cast to a column, logarithm,
    broadcast back). -/
theorem logSum_apply (s : FVec Ideal S5000x40 .f32) (h : S5000x40.Reduces [1] S5000) (hc : S5000.ShapeCasts S5000x1)
    (hb : S5000x1.Broadcasts S5000x40) (hφ : FKind.Formats .f32)
    (ha : (0x00000000#32 : BitVec 32) = FKind.add.neutral .f32 hφ) (p : Fin 5000) (q : Fin 40) :
    broadcastTo S5000x40 (log (shapeCast S5000x1 (multiReduction .add [1] S5000 (exp s) 0x00000000#32 h hφ ha) hc)) hb (ix2 p q)
      = Ideal.log (∑ k : Fin 40, Ideal.exp (s (ix2 p k))) := by
  rw [broadcastTo_col_apply _ hb (by decide) p q]
  show Ideal.log (shapeCast S5000x1 (multiReduction .add [1] S5000 (exp s) 0x00000000#32 h hφ ha) hc (ix2 p (0 : Fin 1))) = _
  rw [shapeCast_col_apply _ hc p 0, laneSum_apply]
  rfl

/-- THE PAYLOAD AT AN INDEX: the body's one store holds, at `(p, q)` of the block, the row-wise log-softmax of the first
    operand's block plus the second operand's one row laid along every row. -/
theorem pay_apply (x0 : FVec Ideal S5000x40 .f32) (x1 : FVec Ideal S1x40 .f32) (p : Fin 5000) (q : Fin 40) :
    k2_pay1 (F := Ideal) x0 x1 (ix2 p q) = lsm (addf x0 (broadcastTo S5000x40 x1 broadcasts_S1x40_S5000x40)) p q := by
  unfold k2_pay1
  simp only [shapeCast_self]
  generalize addf x0 (broadcastTo S5000x40 x1 broadcasts_S1x40_S5000x40) = l
  refine (subf_apply _ _ _).trans ?_
  have e1 := fun j : Fin 40 => shifted_apply l reduces_S5000x40_S5000 shapeCasts_S5000_S5000x1 broadcasts_S5000x1_S5000x40
    (.inl rfl) rfl p j
  refine (congrArg₂ (fun u v : EReal => u - v) (e1 q)
    (logSum_apply _ reduces_S5000x40_S5000 shapeCasts_S5000_S5000x1 broadcasts_S5000x1_S5000x40 (.inl rfl) rfl p q)).trans ?_
  unfold lsm
  exact congrArg (fun s => _ - Ideal.log s) (Finset.sum_congr rfl fun k _ => congrArg Ideal.exp (e1 k))

/-! ## From blocks to the array -/

/-- THE WHOLE-ARRAY FUNCTION: at `(r, q)`, the row-wise log-softmax of `a` plus the one row `b` laid along every row. -/
def wholeLsm (a : (⟨2, ![100000, 40]⟩ : Shape).Idx → EReal) (b : (⟨2, ![1, 40]⟩ : Shape).Idx → EReal) :
    (⟨2, ![100000, 40]⟩ : Shape).Idx → EReal :=
  fun i => lsm (fun k => a k + b (ix2 (0 : Fin 1) (k 1))) (i 0) (i 1)

/-- A point's payload, when its first block is rows `5000 n …` of `a` and its second block is `b`, is the whole-array
    function at those rows. -/
theorem point_apply (a : (⟨2, ![100000, 40]⟩ : Shape).Idx → EReal) (b : (⟨2, ![1, 40]⟩ : Shape).Idx → EReal)
    (x0 : FVec Ideal S5000x40 .f32) (x1 : FVec Ideal S1x40 .f32) (n : Nat)
    (h0 : ∀ (p : Fin 5000) (j : Fin 40) (r : Fin 100000), r.val = 5000 * n + p.val → x0 (ix2 p j) = a (ix2 r j))
    (h1 : ∀ j : Fin 40, x1 (ix2 (0 : Fin 1) j) = b (ix2 (0 : Fin 1) j))
    (p : Fin 5000) (q : Fin 40) (r : Fin 100000) (hr : r.val = 5000 * n + p.val) :
    k2_pay1 (F := Ideal) x0 x1 (ix2 p q) = wholeLsm a b (ix2 r q) := by
  refine (pay_apply x0 x1 p q).trans ?_
  show _ = lsm (fun k => a k + b (ix2 (0 : Fin 1) (k 1))) r q
  refine lsm_congr _ _ p r (fun j => ?_) q
  show x0 (ix2 p j) + broadcastTo S5000x40 x1 broadcasts_S1x40_S5000x40 (ix2 p j) = a (ix2 r j) + b (ix2 (0 : Fin 1) j)
  rw [broadcastTo_1b_ab_apply, h0 p j r hr, h1 j]

section Region
variable (V : (c : Dev nD) → (b : Ref sig .tc) → Buf (Elt Ideal) ((c : Thread nD τ).loc b))

/-- A whole-block rectangle starts at offset zero on both axes. -/
theorem hz : (![0, 0] : Fin 2 → Nat) = fun _ => 0 := funext fun a => by fin_cases a <;> rfl

/-- The printed index maps over the 20 points: the two row-blocked windows sit at block `(t, 0)`, the row operand's
    window stays at block `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Window 0's block at point `t` is rows `5000 t … 5000 t + 4999` of the first operand's array. -/
theorem blk0_apply (c : Dev nD) (t : Fin cfg2.N) (x : S5000x40.Idx) (k : S100000x40.Idx)
    (hk0 : (k 0).val = 5000 * t.val + (x 0).val) (hk1 : (k 1).val = (x 1).val) :
    (iblk2 V c 0 t : FVec Ideal S5000x40 .f32) x = (V c main_v61 : S100000x40.Idx → EReal) k := by
  obtain ⟨e0, e1, -⟩ := idx_facts t
  unfold iblk2
  rw [View.read_apply]
  show (V c main_v61 : S100000x40.Idx → EReal) _ = _
  refine congrArg (V c main_v61 : S100000x40.Idx → EReal) (funext fun a => Fin.ext ?_)
  match a with
  | ⟨0, _⟩ => show win2_0.index t 0 * 5000 + 1 * (x 0).val = (k 0).val; rw [e0, hk0]; omega
  | ⟨1, _⟩ => show win2_0.index t 1 * 40 + 1 * (x 1).val = (k 1).val; rw [e1, hk1]; omega

/-- Window 1's block at every point is the second operand's whole array (one row of 40). -/
theorem blk1_apply (c : Dev nD) (t : Fin cfg2.N) (x : S1x40.Idx) :
    (iblk2 V c 1 t : FVec Ideal S1x40 .f32) x = (V c main_v62 : S1x40.Idx → EReal) x := by
  obtain ⟨-, -, e2, e3, -⟩ := idx_facts t
  unfold iblk2
  rw [View.read_apply]
  show (V c main_v62 : S1x40.Idx → EReal) _ = _
  refine congrArg (V c main_v62 : S1x40.Idx → EReal) (funext fun a => Fin.ext ?_)
  match a with
  | ⟨0, _⟩ => show win2_1.index t 0 * 1 + 1 * (x 0).val = (x 0).val; rw [e2]; omega
  | ⟨1, _⟩ => show win2_1.index t 1 * 40 + 1 * (x 1).val = (x 1).val; rw [e3]; omega

/-- WHAT POINT `t` WRITES BACK is block `t` of the whole-array function of the two operands' arrays as the region finds them. -/
theorem flushed_eq (c : Dev nD) (t : Fin cfg2.N) :
    (dat2 (F := Ideal) V c).flushed 2 t
      = ((cfg2.win 2).blk t).view.read (Elt Ideal) (wholeLsm (V c main_v61) (V c main_v62)) := by
  show (cfg2.win 2).cut (grid2.coords t) ((dat2 V c).after 2 t) = _
  rw [after2_2]
  unfold out2_2
  rw [View.canon_unit_zero hz]
  simp only [View.ld_unit_zero (S := S5000x40) hz, View.ld_unit_zero (S := S1x40) hz]
  obtain ⟨-, -, -, -, e4, e5⟩ := idx_facts t
  have hN : cfg2.N = 20 := N_2
  refine funext fun (y : S5000x40.Idx) => ?_
  obtain ⟨p, q, rfl⟩ : ∃ (p : Fin 5000) (q : Fin 40), y = ix2 p q := ⟨y 0, y 1, eq_ix2 y⟩
  have hr : 5000 * t.val + p.val < 100000 := by have := t.isLt; have := p.isLt; omega
  have hemb : ((cfg2.win 2).blk t).view.emb (ix2 p q) = ix2 (⟨5000 * t.val + p.val, hr⟩ : Fin 100000) q := by
    funext a
    apply Fin.ext
    match a with
    | ⟨0, _⟩ => show win2_2.index t 0 * 5000 + 1 * p.val = 5000 * t.val + p.val; rw [e4]; omega
    | ⟨1, _⟩ => show win2_2.index t 1 * 40 + 1 * q.val = q.val; rw [e5]; omega
  show k2_pay1 (F := Ideal) (iblk2 V c 0 t) (iblk2 V c 1 t) (ix2 p q)
    = wholeLsm (V c main_v61) (V c main_v62) (((cfg2.win 2).blk t).view.emb (ix2 p q))
  rw [hemb]
  exact point_apply (V c main_v61) (V c main_v62) (iblk2 V c 0 t) (iblk2 V c 1 t) t.val
    (fun p j r hr => blk0_apply V c t (ix2 p j) (ix2 r j) hr rfl) (fun j => blk1_apply V c t (ix2 (0 : Fin 1) j)) p q _ rfl

/-- An index of the output array is in point `t`'s block iff each coordinate is in the block's range on its axis. -/
theorem mem_blk (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v63).slice (win2_2.rect t)).set ↔ _
  rw [View.set_slice_whole, Rect.mem_set_unit]
  exact Iff.rfl

/-- Every index of the output array is in some point's block: row `r` is in the block of point `r / 5000`. -/
theorem covered (i : S100000x40.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 40 := (i 1).isLt
  obtain ⟨t, ht⟩ : ∃ t : Fin cfg2.N, t.val = (i 0).val / 5000 := ⟨⟨(i 0).val / 5000, by rw [hN]; omega⟩, rfl⟩
  obtain ⟨-, -, -, -, e4, e5⟩ := idx_facts t
  refine ⟨t, flush2_2 t, ?_⟩
  rw [mem_blk]
  intro a
  match a with
  | ⟨0, _⟩ => show win2_2.index t 0 * 5000 ≤ (i 0).val ∧ (i 0).val < win2_2.index t 0 * 5000 + 5000; rw [e4, ht]; omega
  | ⟨1, _⟩ => show win2_2.index t 1 * 40 ≤ (i 1).val ∧ (i 1).val < win2_2.index t 1 * 40 + 40; rw [e5]; omega

/-- The region's output array after its 20 points is the whole-array function of its two operands' arrays. -/
theorem arr2_whole (c : Dev nD) :
    (dat2 (F := Ideal) V c).arrAt 2 cfg2.N = wholeLsm (V c main_v61) (V c main_v62) :=
  (dat2 (F := Ideal) V c).arrAt_eq_of_cover 2 (wholeLsm (V c main_v61) (V c main_v62)) (fun t _ => flushed_eq V c t) covered

end Region

/-! ## The reference's host operations along a row -/

section HostColumn
variable {α : Type}

/-- A vector of `a` entries broadcast to one column reads, at `(r, u)`, entry `r`. -/
theorem broadcastInDim_vec_col_apply {a : Nat} (h : (⟨1, ![a]⟩ : Shape).BroadcastsInDim ⟨2, ![a, 1]⟩ ![0])
    (v : (⟨1, ![a]⟩ : Shape).Idx → α) (ha : a ≠ 1) (r : Fin a) (u : Fin 1) :
    broadcastInDim ⟨2, ![a, 1]⟩ ![0] h v (ix2 r u) = v (ix1 r) := by
  refine broadcastInDim_apply ![0] h v (ix2 r u) (ix1 r) fun ax => ?_
  match ax with
  | ⟨0, _⟩ => show r.val = if a = 1 then 0 else r.val; rw [if_neg ha]

/-- One column broadcast along `b` lanes by the host reads, at `(r, q)`, the column's entry `r`. -/
theorem broadcastInDim_col_apply {a b : Nat} (h : (⟨2, ![a, 1]⟩ : Shape).BroadcastsInDim ⟨2, ![a, b]⟩ ![0, 1])
    (v : (⟨2, ![a, 1]⟩ : Shape).Idx → α) (ha : a ≠ 1) (r : Fin a) (q : Fin b) :
    broadcastInDim ⟨2, ![a, b]⟩ ![0, 1] h v (ix2 r q) = v (ix2 r (0 : Fin 1)) := by
  refine broadcastInDim_apply ![0, 1] h v (ix2 r q) (ix2 r (0 : Fin 1)) fun ax => ?_
  match ax with
  | ⟨0, _⟩ => show r.val = if a = 1 then 0 else r.val; rw [if_neg ha]
  | ⟨1, _⟩ => show 0 = if (1 : Nat) = 1 then 0 else q.val; rw [if_pos rfl]

end HostColumn

/-- A row's maximum from −∞ is at least −∞, so joining it with −∞ once more changes nothing. -/
theorem max_negInf_rowTop {n : Nat} (z : (⟨2, ![n, 40]⟩ : Shape).Idx → EReal) (p : Fin n) : max negInf (rowTop z p) = rowTop z p :=
  max_eq_right (by unfold rowTop; exact (Finset.le_fold_max negInf).mpr (Or.inl le_rfl))

/-- The host's reduce-max along the lanes from −∞, at row `r`, is that row's maximum. -/
theorem hostLaneMax_apply (z : FVec Ideal ⟨2, ![100000, 40]⟩ .f32)
    (h' : (⟨2, ![100000, 40]⟩ : Shape).ReducesTo [1] ⟨1, ![100000]⟩) (hu : 0 < (⟨0, ![]⟩ : Shape).numel) (r : Fin 100000) :
    Host.reduce FloatOps.maximumf z (constant (F := Ideal) ⟨0, ![]⟩ .f32 0xFF800000#32) h' hu (ix1 r) = rowTop z r := by
  have h : (⟨2, ![100000, 40]⟩ : Shape).Reduces [1] ⟨1, ![100000]⟩ := by decide
  refine (Host.reduce_eq_fold_single FloatOps.maximumf z _ h' h hu (ix1 r)).trans ?_
  unfold rowTop
  exact congrArg (fun f => (Finset.univ : Finset (Fin 40)).fold max negInf f) (funext fun k => congrArg z (lift_row h r k))

/-- The host's reduce-add along the lanes from 0, at row `r`, is the sum along that row. -/
theorem hostLaneSum_apply (e : FVec Ideal ⟨2, ![100000, 40]⟩ .f32)
    (h' : (⟨2, ![100000, 40]⟩ : Shape).ReducesTo [1] ⟨1, ![100000]⟩) (hu : 0 < (⟨0, ![]⟩ : Shape).numel) (r : Fin 100000) :
    Host.reduceAdd e (constant (F := Ideal) ⟨0, ![]⟩ .f32 0x00000000#32) h' hu (ix1 r) = ∑ k : Fin 40, e (ix2 r k) := by
  have h : (⟨2, ![100000, 40]⟩ : Shape).Reduces [1] ⟨1, ![100000]⟩ := by decide
  refine (hostReduceAdd_apply e _ h' hu (ix1 r)).trans ?_
  rw [Ideal.hostReduceAdd_single h' h]
  show Ideal.ofBits .f32 0x00000000#32 + _ = _
  rw [Ideal.ofBits_zero_f32, zero_add]
  exact Finset.sum_congr rfl fun k _ => congrArg e (lift_row h r k)

/-! ## The reference's chain at an index -/

/-- The host's exponential at an index is the exponential of the element. -/
theorem hostExp_apply {s : Shape} (v : FVec Ideal s .f32) (i : s.Idx) : Host.exp v i = Ideal.exp (v i) := rfl
/-- The host's logarithm at an index is the logarithm of the element. -/
theorem hostLog_apply {s : Shape} (v : FVec Ideal s .f32) (i : s.Idx) : Host.log v i = Ideal.log (v i) := rfl

/-- The reference's row maxima (the reduce from −∞, joined with −∞ once more) at row `r`. -/
theorem ref_rowMax_apply (z : FVec Ideal ⟨2, ![100000, 40]⟩ .f32) (r : Fin 100000) :
    Cert.ReferenceIdeal.Stages.rowMax (F := Ideal) z (ix1 r) = rowTop z r := by
  unfold Cert.ReferenceIdeal.Stages.rowMax
  refine (maximumf_apply _ _ _).trans ?_
  refine (congrArg₂ max (broadcastInDim_scalar_apply _ _ (ix1 r)) (hostLaneMax_apply z _ _ r)).trans ?_
  exact max_negInf_rowTop z r

/-- The reference's logits less their row's maximum (broadcast back through one column) at `(r, j)`. -/
theorem ref_shifted_apply (z : FVec Ideal ⟨2, ![100000, 40]⟩ .f32) (r : Fin 100000) (j : Fin 40) :
    Cert.ReferenceIdeal.Stages.shifted (F := Ideal) z (ix2 r j) = z (ix2 r j) - rowTop z r := by
  unfold Cert.ReferenceIdeal.Stages.shifted
  refine (subf_apply _ _ _).trans (congrArg (fun m : EReal => z (ix2 r j) - m) ?_)
  refine (broadcastInDim_col_apply _ _ (by decide) r j).trans ?_
  refine (broadcastInDim_vec_col_apply _ _ (by decide) r (0 : Fin 1)).trans ?_
  exact ref_rowMax_apply z r

/-- THE REFERENCE AT AN INDEX: its row-wise log-softmax of any logits is the same function of them. -/
theorem ref_apply (z : FVec Ideal ⟨2, ![100000, 40]⟩ .f32) (r : Fin 100000) (q : Fin 40) :
    Cert.ReferenceIdeal.Stages.logSoftmaxRows (F := Ideal) z (ix2 r q) = lsm z r q := by
  unfold Cert.ReferenceIdeal.Stages.logSoftmaxRows
  refine (subf_apply _ _ _).trans ?_
  unfold lsm
  refine congrArg₂ (fun u v : EReal => u - v) (ref_shifted_apply z r q) ?_
  refine (broadcastInDim_col_apply _ _ (by decide) r q).trans ?_
  refine (hostLog_apply _ _).trans (congrArg Ideal.log ?_)
  refine (broadcastInDim_vec_col_apply _ _ (by decide) r (0 : Fin 1)).trans ?_
  refine (hostLaneSum_apply _ _ _ r).trans ?_
  exact Finset.sum_congr rfl fun k _ => (hostExp_apply _ _).trans (congrArg Ideal.exp (ref_shifted_apply z r k))

/-- The reference's row-wise log-softmax of `a` plus the row `b` spread over the rows is the whole-array function. -/
theorem ref_eq (a : FVec Ideal ⟨2, ![100000, 40]⟩ .f32) (b : FVec Ideal ⟨2, ![1, 40]⟩ .f32) :
    Cert.ReferenceIdeal.Stages.logSoftmaxRows (F := Ideal) (addf a (Cert.ReferenceIdeal.Stages.spreadRow (F := Ideal) b))
      = wholeLsm a b := by
  funext i
  obtain ⟨r, q, rfl⟩ : ∃ (r : Fin 100000) (q : Fin 40), i = ix2 r q := ⟨i 0, i 1, eq_ix2 i⟩
  refine (ref_apply _ r q).trans ?_
  show _ = lsm (fun k => a k + b (ix2 (0 : Fin 1) (k 1))) r q
  refine lsm_congr _ _ r r (fun j => ?_) q
  refine (addf_apply _ _ _).trans (congrArg (fun m : EReal => a (ix2 r j) + m) ?_)
  unfold Cert.ReferenceIdeal.Stages.spreadRow
  exact broadcastInDim_oneRow_apply _ b r j

/-! ## The region's output array -/

section Result
variable (V : (c : Dev nD) → (b : Ref sig .tc) → Buf (Elt Ideal) ((c : Thread nD τ).loc b))

/-- Region 2's output array after its 20 points is the reference's row-wise log-softmax of the region's first operand
    plus its second operand (one row of 40) spread over the rows. -/
theorem arr2 (c : Dev nD) :
    (Gen.dat2 (F := Ideal) V c).arrAt 2 cfg2.N
      = Cert.ReferenceIdeal.Stages.logSoftmaxRows (F := Ideal)
          (addf (F := Ideal) (s := ⟨2, ![100000, 40]⟩) (φ := .f32) (V c main_v61)
            (Cert.ReferenceIdeal.Stages.spreadRow (F := Ideal) (V c main_v62))) :=
  (arr2_whole V c).trans (ref_eq _ _).symm

end Result

end Cert.KernelIdeal.SoftmaxRegion

end
-- ==== Proof.KernelValue.lean ====
/-
  The idealized kernel's result array is the reference's result stage of the six argument arrays.
  Reading back from the end: region 2 leaves the row-wise log-softmax of its first operand plus the bias row; that
  operand is the second aggregation of what region 1 left, which is the product of the activated first layer with
  `W₂`; the activated first layer is the first aggregation (with bias and clamp) of what region 0 left, which is
  `x · W₁`. Each host stretch between them is the reference's own chain of the same name, and every argument reaches
  the place where it is read unchanged.
-/
import proofs.«146416_j58969900974604_1_alg».proof.Proof.KernelFold
import proofs.«146416_j58969900974604_1_alg».proof.Proof.MatmulRegions
import proofs.«146416_j58969900974604_1_alg».proof.Proof.SoftmaxRegion

set_option maxRecDepth 16384

noncomputable section

namespace Cert.KernelIdeal.ValueAtIdeal

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Region 0 leaves `x · W₁`. -/
theorem first_product (c : Dev nD) :
    W4 m ρ c (Proc.devRef .tc main_v30) = Cert.ReferenceIdeal.Read.val_main_v4 (F := Ideal) (m ((c.tc : Thread nD τ).loc main_arg0)) (m ((c.tc : Thread nD τ).loc main_arg2)) := by
  refine (W4_arr m ρ c 2).trans ?_
  rw [Cert.KernelIdeal.MatmulRegions.arr0 (V3 m ρ) c]
  show Cert.ReferenceIdeal.Read.val_main_v4 (F := Ideal) (W3 m ρ c (Proc.devRef .tc main_arg0)) (W3 m ρ c (Proc.devRef .tc main_arg2)) = _
  rw [Fold.W3_keeps_arg0, Fold.W3_keeps_arg2]

/-- Region 1 enters on the reference's activated first layer. -/
theorem first_layer (c : Dev nD) :
    W6 m ρ c (Proc.devRef .tc main_v47) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) := by
  rw [Fold.W6_v47, first_product, Cert.ReferenceIdeal.Stages.val_main_v47_eq]

/-- Region 1 leaves the reference's second product. -/
theorem second_product (c : Dev nD) :
    W7 m ρ c (Proc.devRef .tc main_v48) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  rw [Cert.KernelIdeal.MatmulRegions.arr1 (V6 m ρ) c]
  show Cert.ReferenceIdeal.Stages.dot2 (F := Ideal) (W6 m ρ c (Proc.devRef .tc main_v47)) (W6 m ρ c (Proc.devRef .tc main_arg4)) = _
  rw [first_layer, Fold.W6_keeps_arg4, Cert.ReferenceIdeal.Stages.val_main_v48_eq]

/-- Region 2 enters on the reference's second aggregation. -/
theorem second_aggregation (c : Dev nD) :
    W8 m ρ c (Proc.devRef .tc main_v61) = Cert.ReferenceIdeal.Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Fold.W8_v61, second_product, Cert.ReferenceIdeal.Stages.val_main_v87_eq]

/-- THE RESULT: what the kernel's run leaves in its result array is the reference's last stage of the arguments. -/
theorem result_eq (c : Dev nD) :
    W9 m ρ c (Proc.devRef .tc main_v63)
      = Cert.ReferenceIdeal.Read.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ?_
  rw [Cert.KernelIdeal.SoftmaxRegion.arr2 (V8 m ρ) c]
  show Cert.ReferenceIdeal.Stages.logSoftmaxRows (F := Ideal) (addf (F := Ideal) (s := ⟨2, ![100000, 40]⟩) (φ := .f32) (W8 m ρ c (Proc.devRef .tc main_v61)) (Cert.ReferenceIdeal.Stages.spreadRow (F := Ideal) (W8 m ρ c (Proc.devRef .tc main_v62)))) = _
  rw [second_aggregation, Fold.W8_v62, Fold.spread_row]
  exact (Cert.ReferenceIdeal.Stages.val_main_v91_eq _ _ _ _ _ _).symm

end Cert.KernelIdeal.ValueAtIdeal

end
-- ==== Proof.RefRunValue.lean ====
/-
  The reference's run, read back stage by stage. Its @main is one straight line of host operations; cut after each
  concatenate, and once more before the last called function, the line is five pieces: the edge lists with their self-loops and the
  first product; the degrees, weights, first aggregation, activation and second product; the edge lists once more; the
  weights once more, the second aggregation and the bias; the row-wise log-softmax. Run from ANY buffer contents `V`, each piece leaves in the buffers
  it writes the reference's stages of that name, of what `V` holds where the piece reads; a buffer a piece does not write
  keeps its contents. Chained from the launch contents, the result buffer ends at the last stage of the six arguments.
-/
import proofs.«146416_j58969900974604_1_alg».proof.Proof.RefRun
import proofs.«146416_j58969900974604_1_alg».proof.Proof.RefRead
import Idealize.ShloMosaic.Lib.StableHlo.Run
import Idealize.ShloMosaic.Lib.Pipeline.Frame

set_option maxRecDepth 16384

noncomputable section

namespace Cert.ReferenceIdeal.RunValue

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable {F : FTy → Type} [FloatOps F]

/-- A reference that no operation of a piece writes holds after the piece what it held before. -/
macro "unwritten" : tactic => `(tactic|
  (refine StableHlo.after_of_forall_not_mem _ _ (List.forall_iff_forall_mem.mp ?_)
   simp only [opsA, opsB, opsC, opsD, opsE, List.Forall, StableHlo.nullary_writes, StableHlo.unary_writes,
     StableHlo.binary_writes, StableHlo.ternary_writes, StableHlo.quaternary_writes, StableHlo.reshape_writes,
     StableHlo.binaryIndexed_writes, Finset.mem_singleton]
   repeat' apply And.intro
   all_goals exact StableHlo.devRef_ne_of_ne (by decide)))

/-- Contents carried to a typed reference's buffer type and back are the contents. -/
theorem ofBuf_toBuf {T : BufTy} (x : StableHlo.TRef sig T) (v : T.Contents (Elt F)) : x.ofBuf (x.toBuf v) = v := by
  obtain ⟨r, rfl, _, _⟩ := x
  rfl

variable (V : Valuation τ sig (Elt F))

/-! ## The first piece -/

theorem A_v1 : after opsA V (Proc.devRef .tc main_v1) = val_main_v1 (F := F) (V (Proc.devRef .tc main_arg1)) := by
  after_results
  rfl
theorem A_v3 : after opsA V (Proc.devRef .tc main_v3) = val_main_v3 (F := F) (V (Proc.devRef .tc main_arg1)) := by
  after_results
  rfl
theorem A_v4 : after opsA V (Proc.devRef .tc main_v4) = val_main_v4 (F := F) (V (Proc.devRef .tc main_arg0)) (V (Proc.devRef .tc main_arg2)) := by
  after_results
  rfl
theorem A_v6 : after opsA V (Proc.devRef .tc main_v6) = val_main_v6 (F := F) (V (Proc.devRef .tc main_arg1)) := by
  after_results
  rfl
theorem A_v7 : after opsA V (Proc.devRef .tc main_v7) = val_main_v7 (F := F) (V (Proc.devRef .tc main_arg1)) := by
  after_results
  rfl
theorem A_arg3 : after opsA V (Proc.devRef .tc main_arg3) = V (Proc.devRef .tc main_arg3) := by unwritten
theorem A_arg4 : after opsA V (Proc.devRef .tc main_arg4) = V (Proc.devRef .tc main_arg4) := by unwritten
theorem A_arg5 : after opsA V (Proc.devRef .tc main_arg5) = V (Proc.devRef .tc main_arg5) := by unwritten

/-! ## The second piece -/

set_option maxHeartbeats 8000000 in
theorem B_v48 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x40, .f32⟩ : BufTy).Contents (Elt F))
    (h4 : V (Proc.devRef .tc main_v4) = val_main_v4 (F := F) x0 x2) (h6 : V (Proc.devRef .tc main_v6) = val_main_v6 (F := F) x1)
    (h7 : V (Proc.devRef .tc main_v7) = val_main_v7 (F := F) x1) (ha3 : V (Proc.devRef .tc main_arg3) = x3) (ha4 : V (Proc.devRef .tc main_arg4) = x4) :
    after opsB V (Proc.devRef .tc main_v48) = val_main_v48 (F := F) x0 x1 x2 x3 x4 := by
  after_results_simp
  rw [h4, h6, h7, ha3, ha4]
  rfl
theorem B_v1 : after opsB V (Proc.devRef .tc main_v1) = V (Proc.devRef .tc main_v1) := by unwritten
theorem B_v3 : after opsB V (Proc.devRef .tc main_v3) = V (Proc.devRef .tc main_v3) := by unwritten
theorem B_arg5 : after opsB V (Proc.devRef .tc main_arg5) = V (Proc.devRef .tc main_arg5) := by unwritten

/-! ## The third piece -/

theorem C_v50 (x1 : (⟨S2x3200000, .i32⟩ : BufTy).Contents (Elt F)) (h1 : V (Proc.devRef .tc main_v1) = val_main_v1 (F := F) x1) :
    after opsC V (Proc.devRef .tc main_v50) = val_main_v50 (F := F) x1 := by
  after_results
  rw [h1]
  rfl
theorem C_v51 (x1 : (⟨S2x3200000, .i32⟩ : BufTy).Contents (Elt F)) (h3 : V (Proc.devRef .tc main_v3) = val_main_v3 (F := F) x1) :
    after opsC V (Proc.devRef .tc main_v51) = val_main_v51 (F := F) x1 := by
  after_results
  rw [h3]
  rfl
theorem C_v48 : after opsC V (Proc.devRef .tc main_v48) = V (Proc.devRef .tc main_v48) := by unwritten
theorem C_arg5 : after opsC V (Proc.devRef .tc main_arg5) = V (Proc.devRef .tc main_arg5) := by unwritten

/-! ## The fourth piece -/

set_option maxHeartbeats 8000000 in
theorem D_v90 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))
    (h48 : V (Proc.devRef .tc main_v48) = val_main_v48 (F := F) x0 x1 x2 x3 x4) (h50 : V (Proc.devRef .tc main_v50) = val_main_v50 (F := F) x1)
    (h51 : V (Proc.devRef .tc main_v51) = val_main_v51 (F := F) x1) (ha5 : V (Proc.devRef .tc main_arg5) = x5) :
    after opsD V (Proc.devRef .tc main_v90) = val_main_v90 (F := F) x0 x1 x2 x3 x4 x5 := by
  after_results_simp
  try simp only [ofBuf_toBuf]
  rw [h48, h50, h51, ha5]
  rfl

/-! ## The fifth piece: the row-wise log-softmax of what the fourth left -/

set_option maxHeartbeats 8000000 in
theorem E_v91 (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))
    (h90 : V (Proc.devRef .tc main_v90) = val_main_v90 (F := F) x0 x1 x2 x3 x4 x5) :
    after opsE V (Proc.devRef .tc main_v91) = val_main_v91 (F := F) x0 x1 x2 x3 x4 x5 := by
  after_results_simp
  try simp only [ofBuf_toBuf]
  rw [h90]
  rfl

/-! ## The whole line -/

/-- From any contents, the whole line leaves in the result buffer the last stage of what the six argument buffers held. -/
theorem result_of (V : Valuation τ sig (Elt F)) :
    after (Cert.ReferenceIdeal.Value.ops : List (HloOp τ sig (Elt F))) V (Proc.devRef .tc main_v91)
      = val_main_v91 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, StableHlo.after_append, StableHlo.after_append, StableHlo.after_append, StableHlo.after_append]
  refine E_v91 _ _ _ _ _ _ _ (D_v90 _ _ _ _ _ _ _ ?_ ?_ ?_ ?_)
  · exact (C_v48 _).trans (B_v48 _ _ _ _ _ _ (A_v4 V) (A_v6 V) (A_v7 V) (A_arg3 V) (A_arg4 V))
  · exact C_v50 _ _ ((B_v1 _).trans (A_v1 V))
  · exact C_v51 _ _ ((B_v3 _).trans (A_v3 V))
  · exact (C_arg5 _).trans ((B_arg5 _).trans (A_arg5 V))

/-- A reference that none of the five pieces writes keeps its contents through the whole line. -/
theorem kept (b : Ref sig .tc) (V : Valuation τ sig (Elt F))
    (hA : ∀ W : Valuation τ sig (Elt F), after opsA W (Proc.devRef .tc b) = W (Proc.devRef .tc b))
    (hB : ∀ W : Valuation τ sig (Elt F), after opsB W (Proc.devRef .tc b) = W (Proc.devRef .tc b))
    (hC : ∀ W : Valuation τ sig (Elt F), after opsC W (Proc.devRef .tc b) = W (Proc.devRef .tc b))
    (hD : ∀ W : Valuation τ sig (Elt F), after opsD W (Proc.devRef .tc b) = W (Proc.devRef .tc b))
    (hE : ∀ W : Valuation τ sig (Elt F), after opsE W (Proc.devRef .tc b) = W (Proc.devRef .tc b)) :
    after (Cert.ReferenceIdeal.Value.ops : List (HloOp τ sig (Elt F))) V (Proc.devRef .tc b) = V (Proc.devRef .tc b) := by
  rw [ops_split, StableHlo.after_append, StableHlo.after_append, StableHlo.after_append, StableHlo.after_append, hE, hD, hC, hB, hA]

theorem kept_arg0 (V : Valuation τ sig (Elt F)) :
    after (Cert.ReferenceIdeal.Value.ops : List (HloOp τ sig (Elt F))) V (Proc.devRef .tc main_arg0) = V (Proc.devRef .tc main_arg0) :=
  kept main_arg0 V (fun W => by unwritten) (fun W => by unwritten) (fun W => by unwritten) (fun W => by unwritten) (fun W => by unwritten)
theorem kept_arg1 (V : Valuation τ sig (Elt F)) :
    after (Cert.ReferenceIdeal.Value.ops : List (HloOp τ sig (Elt F))) V (Proc.devRef .tc main_arg1) = V (Proc.devRef .tc main_arg1) :=
  kept main_arg1 V (fun W => by unwritten) (fun W => by unwritten) (fun W => by unwritten) (fun W => by unwritten) (fun W => by unwritten)
theorem kept_arg2 (V : Valuation τ sig (Elt F)) :
    after (Cert.ReferenceIdeal.Value.ops : List (HloOp τ sig (Elt F))) V (Proc.devRef .tc main_arg2) = V (Proc.devRef .tc main_arg2) :=
  kept main_arg2 V (fun W => by unwritten) (fun W => by unwritten) (fun W => by unwritten) (fun W => by unwritten) (fun W => by unwritten)
theorem kept_arg3 (V : Valuation τ sig (Elt F)) :
    after (Cert.ReferenceIdeal.Value.ops : List (HloOp τ sig (Elt F))) V (Proc.devRef .tc main_arg3) = V (Proc.devRef .tc main_arg3) :=
  kept main_arg3 V (fun W => by unwritten) (fun W => by unwritten) (fun W => by unwritten) (fun W => by unwritten) (fun W => by unwritten)
theorem kept_arg4 (V : Valuation τ sig (Elt F)) :
    after (Cert.ReferenceIdeal.Value.ops : List (HloOp τ sig (Elt F))) V (Proc.devRef .tc main_arg4) = V (Proc.devRef .tc main_arg4) :=
  kept main_arg4 V (fun W => by unwritten) (fun W => by unwritten) (fun W => by unwritten) (fun W => by unwritten) (fun W => by unwritten)
theorem kept_arg5 (V : Valuation τ sig (Elt F)) :
    after (Cert.ReferenceIdeal.Value.ops : List (HloOp τ sig (Elt F))) V (Proc.devRef .tc main_arg5) = V (Proc.devRef .tc main_arg5) :=
  kept main_arg5 V (fun W => by unwritten) (fun W => by unwritten) (fun W => by unwritten) (fun W => by unwritten) (fun W => by unwritten)

/-- THE REFERENCE'S RUN: from any memory with zero counters every weakly fair execution terminates, nothing faulting,
    with the result buffer at the last stage of the six arguments and the arguments as launched. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91)
          = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (result_of (launchContents m c)),
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _)⟩)
    (run_seq scopedRefs_eq scopedSems_eq defs main (fun _ => ops) main_eq (fun _ => ops_sub) m ρ)

end Cert.ReferenceIdeal.RunValue

end
-- ==== Proof.lean ====
/-
  A two-layer graph convolution with symmetric normalisation and self-loops, followed by a row-wise log-softmax:
  `out = logsoftmax (Â · relu (Â · (x · W₁) + b₁) · W₂ + b₂)`, where `Â` weights edge `e` by
  `norm e = dinv (s e) · dinv (d e)`, `dinv = deg^(-1/2)` where the in-degree (self-loop included) is positive and `0` elsewhere.
  The kernel computes the two dense products and the final bias-add + log-softmax on the TensorCore, in blocks of 5000
  rows, and everything indexed by the edges on the host, by the same operations as the reference; the reference does
  all of it on the host (and builds the edge lists and weights once per layer, from the same edge array).
  At the extended reals the two agree entry by entry with no algebra beyond reading each operation at an index: a
  change of float format is the identity, a product into a zero accumulator is the plain row-by-column sum that the
  host's contraction is, the lane maximum from −∞ and the lane sum from 0 are the host's reductions, and the
  reference's extra join of the row maximum with −∞ changes nothing. The shared gather / scatter-add chains are never
  opened: the values entering them are shown equal. No input's finiteness is used.
  The kernel's run with its result named is `Cert.KernelIdeal.RunValue.run_named`; the result as the reference's last
  stage of the arguments is `Cert.KernelIdeal.ValueAtIdeal.result_eq`; the reference's run, read back stage by stage, is `Cert.ReferenceIdeal.RunValue.run_value`.
-/
import proofs.«146416_j58969900974604_1_alg».proof.Defs
import proofs.«146416_j58969900974604_1_alg».proof.Proof.Gen.Kernel
import proofs.«146416_j58969900974604_1_alg».proof.Proof.Gen.Kernel.Frame
import proofs.«146416_j58969900974604_1_alg».proof.Proof.Gen.KernelIdeal
import proofs.«146416_j58969900974604_1_alg».proof.Proof.Gen.KernelIdeal.Frame
import proofs.«146416_j58969900974604_1_alg».proof.Proof.Gen.ReferenceIdeal
import proofs.«146416_j58969900974604_1_alg».proof.Proof.Gen.Pre_finite_inputs
import proofs.«146416_j58969900974604_1_alg».proof.Proof.KernelRun
import proofs.«146416_j58969900974604_1_alg».proof.Proof.KernelValue
import proofs.«146416_j58969900974604_1_alg».proof.Proof.RefRunValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run read back, the result dropped. -/
theorem frame_reference : Cert.frame_ReferenceIdeal := fun m ρ _ =>
  (θ_run Cert.ReferenceIdeal.defs _ _).mono (fun _ h c => (h c).2) (Cert.ReferenceIdeal.RunValue.run_value (F := Ideal) m ρ)

/-- From memories that agree on the six arguments both programs run, and the kernel's result array is the reference's:
    each is the reference's last stage of the (same) arguments. -/
theorem algebraic : Cert.algebraic_KernelIdeal_ReferenceIdeal := by
  intro m ρ m' ρ' _ hagree
  refine ⟨fun c => Cert.KernelIdeal.Gen.W9 m ρ c (Proc.devRef .tc Cert.KernelIdeal.main_v63),
    Cert.KernelIdeal.RunValue.run_named (F := Ideal) m ρ, ?_⟩
  refine (θ_run Cert.ReferenceIdeal.defs _ _).mono (fun _ h c => ⟨(h c).1.trans ?_, (h c).2⟩)
    (Cert.ReferenceIdeal.RunValue.run_value (F := Ideal) m' ρ')
  obtain ⟨e0, e1, e2, e3, e4, e5⟩ := hagree c
  rw [e0, e1, e2, e3, e4, e5]
  exact (Cert.KernelIdeal.ValueAtIdeal.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
